-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S1024x512 .f32) (main_arg5 : FVec F S512 .f32) (main_arg6 : FVec F S512 .f32) (main_arg7 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x512 .f32) (main_arg2 : FVec F S1024x512 .f32) (main_arg3 : FVec F S1024x512 .f32) (main_arg4 : FVec F S1024x512 .f32) (main_arg5 : FVec F S512 .f32) (main_arg6 : FVec F S512 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_v13 main_v16
-- ==== Kernel.lean ====
abbrev S16384x512 : Shape := ⟨2, ![16384, 512]⟩
abbrev S1024x512 : Shape := ⟨2, ![1024, 512]⟩
abbrev S512 : Shape := ⟨1, ![512]⟩
abbrev S512x512 : Shape := ⟨2, ![512, 512]⟩
abbrev S1x512 : Shape := ⟨2, ![1, 512]⟩

abbrev nBuf : Space → Nat
  | .hbm => 15
  | .vmem => 15
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S1024x512, .f32⟩
  | .local _ .vmem, ⟨14, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S1024x512_S512x512_0_0 : S1024x512.Slices ![0, 0] S512x512
  slices_S1024x512_S512x512_512_0 : S1024x512.Slices ![512, 0] S512x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S16384x512.size a
  hwx0_11 : ∀ i : grid0.Coords, EltTy.bits .f32 = 32 ∨ (Rect.block (s := S16384x512) S1024x512.size (cc0_transform_11 i) (hinb0_11 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg6) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S1024x512.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S512 : Shape := ⟨1, ![512]⟩
abbrev S16384x1024 : Shape := ⟨2, ![16384, 1024]⟩
abbrev S1x512 : Shape := ⟨2, ![1, 512]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S16384x1024, .f32⟩
  | .hbm, ⟨9, _⟩ => ⟨S16384x512, .f32⟩
  | .hbm, ⟨10, _⟩ => ⟨S1x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S_, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S1x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S_, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x1024, .f32⟩
  | .hbm, ⟨35, _⟩ => ⟨S16384x512, .f32⟩
  | .hbm, ⟨36, _⟩ => ⟨S1x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  dot_S16384x1024_S1024x512_S16384x512_1_0_0_1_n_n_wf : DotDims.WF S16384x1024 S1024x512 S16384x512 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.Cell.lean ====
/-
  One step of a gated recurrent unit, for one row, over the extended reals.

  A row  x  of 512 inputs and a row  h  of 512 previous hidden values go through three gates. Each gate has a
  [1024, 512] weight matrix whose upper 512 rows multiply  x  and whose lower 512 rows multiply the hidden row, and a
  bias row; its argument at column  c  is

      a(v, w)_c = (Σ_k v_k · W_{k,c}) + (Σ_k w_k · W_{512+k,c}) + b_c            (`gateArg`)

  With  σ(t) = 1 / (1 + e^(−t))  the logistic function,
      z_c  = σ (a_u(x, h)_c)                      the update gate,
      r_k  = σ (a_r(x, h)_k)                      the reset gate,
      n_c  = tanh (a_h(x, r ⊙ h)_c)               the candidate,
      h'_c = (1 − z_c) · h_c + z_c · n_c          the new hidden value            (`cell`).

  The one law the two programs need is that a sum over 1024 terms is the sum over its first 512 terms plus the sum
  over its last 512 (`sum_halves`): the product of the joined row (x | h) with a whole weight matrix is the product of
  x with the upper half plus the product of h with the lower half. It is additive associativity and commutativity
  only, so it holds on all extended reals, infinite ones included.
-/
import Idealize.ShloMosaic.PureOps.Ideal
import Idealize.ShloMosaic.Lib.ValueIdx
import Idealize.ShloMosaic.Lib.IdealHost

noncomputable section

open scoped BigOperators

namespace Cert.Gru

open Idealize.ShloMosaic

/-- Row k of the upper half of a 1024-row matrix. -/
def lo (k : Fin 512) : Fin 1024 := ⟨k.val, by have := k.isLt; omega⟩
/-- Row k of the lower half of a 1024-row matrix: row 512 + k. -/
def hi (k : Fin 512) : Fin 1024 := ⟨512 + k.val, by have := k.isLt; omega⟩

/-- A sum over 1024 terms is the sum over the first 512 plus the sum over the last 512. -/
theorem sum_halves (f : Fin 1024 → EReal) :
    ∑ k : Fin 1024, f k = (∑ k : Fin 512, f (lo k)) + ∑ k : Fin 512, f (hi k) :=
  Fin.sum_univ_add (a := 512) (b := 512) f

/-- A gate's argument at column c: the row v against the upper weights A, the row w against the lower weights B,
    plus the bias. -/
def gateArg (v w : Fin 512 → EReal) (A B : Fin 512 → Fin 512 → EReal) (b : Fin 512 → EReal) (c : Fin 512) : EReal :=
  (∑ k : Fin 512, v k * A k c) + (∑ k : Fin 512, w k * B k c) + b c

/-- The new hidden value at column c, from the input row x, the previous hidden row h, the six half matrices and the
    three bias rows. -/
def cell (x h : Fin 512 → EReal) (Ux Uh Rx Rh Hx Hh : Fin 512 → Fin 512 → EReal) (ub rb hb : Fin 512 → EReal)
    (c : Fin 512) : EReal :=
  (1 - Ideal.logistic (gateArg x h Ux Uh ub c)) * h c
    + Ideal.logistic (gateArg x h Ux Uh ub c)
      * Ideal.tanh (gateArg x (fun k => Ideal.logistic (gateArg x h Rx Rh rb k) * h k) Hx Hh hb c)

/-- The step on whole arrays: row r of the result is the cell of row r of X and row r of H; the weights' halves are the
    rows 0 … 511 and 512 … 1023 of each [1024, 512] matrix. -/
def step (X H : FVec Ideal ⟨2, ![16384, 512]⟩ .f32) (Wu Wr Wh : FVec Ideal ⟨2, ![1024, 512]⟩ .f32)
    (bu br bh : FVec Ideal ⟨1, ![512]⟩ .f32) : FVec Ideal ⟨2, ![16384, 512]⟩ .f32 :=
  fun j => cell (fun k => X (ValueIdx.ix2 (n0 := 16384) (j 0) k)) (fun k => H (ValueIdx.ix2 (n0 := 16384) (j 0) k))
    (fun k c => Wu (ValueIdx.ix2 (lo k) c)) (fun k c => Wu (ValueIdx.ix2 (hi k) c))
    (fun k c => Wr (ValueIdx.ix2 (lo k) c)) (fun k c => Wr (ValueIdx.ix2 (hi k) c))
    (fun k c => Wh (ValueIdx.ix2 (lo k) c)) (fun k c => Wh (ValueIdx.ix2 (hi k) c))
    (fun c => bu (ValueIdx.ix1 c)) (fun c => br (ValueIdx.ix1 c)) (fun c => bh (ValueIdx.ix1 c)) (j 1)

/-- The step at the entry (r, c). -/
theorem step_apply (X H : FVec Ideal ⟨2, ![16384, 512]⟩ .f32) (Wu Wr Wh : FVec Ideal ⟨2, ![1024, 512]⟩ .f32)
    (bu br bh : FVec Ideal ⟨1, ![512]⟩ .f32) (r : Fin 16384) (c : Fin 512) :
    step X H Wu Wr Wh bu br bh (ValueIdx.ix2 r c)
      = cell (fun k => X (ValueIdx.ix2 r k)) (fun k => H (ValueIdx.ix2 r k))
          (fun k c => Wu (ValueIdx.ix2 (lo k) c)) (fun k c => Wu (ValueIdx.ix2 (hi k) c))
          (fun k c => Wr (ValueIdx.ix2 (lo k) c)) (fun k c => Wr (ValueIdx.ix2 (hi k) c))
          (fun k c => Wh (ValueIdx.ix2 (lo k) c)) (fun k c => Wh (ValueIdx.ix2 (hi k) c))
          (fun c => bu (ValueIdx.ix1 c)) (fun c => br (ValueIdx.ix1 c)) (fun c => bh (ValueIdx.ix1 c)) c := rfl

/-- The host's spelling of the logistic function — 1 / (1 + e^(−t)) with each 1 the f32 word of one — is the logistic
    function. -/
theorem logistic_spelled (t : EReal) :
    FloatOps.hostDivf (FloatOps.ofBits (F := Ideal) .f32 0x3F800000#32)
        (FloatOps.addf (FloatOps.ofBits (F := Ideal) .f32 0x3F800000#32) (FloatOps.hostUnary .exp (FloatOps.hostNegf t)))
      = Ideal.logistic t := by
  rw [Ideal.ofBits_def, Ideal.ofBits_one_f32]; rfl

end Cert.Gru

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.RefIsStep.lean ====
/-
  The reference computes the step.

  The reference joins each row (x | h) into one row of 1024 numbers and multiplies it with a whole [1024, 512] weight
  matrix. Read at an entry, the joined row is x on its first 512 columns and h on its last 512 (`row_lo`, `row_hi`),
  so by the split of a sum into its halves the product is  x · (upper half) + h · (lower half)  (`joined_product`), and
  with the bias row added the gate's argument (`joined_gate`). The three gates are then read stage by stage: the
  logistic function the host spells out as 1 / (1 + e^(−t)), the hidden row scaled by the reset gate before the third
  product, the hyperbolic tangent, and the convex mix with the update gate.
-/
import proofs.«150550_j50165218017581_1_alg».proof.Proof.RefRead
import proofs.«150550_j50165218017581_1_alg».proof.Proof.Cell
import proofs.«150550_j50165218017581_1_alg».proof.Proof.LibDense
import proofs.«150550_j50165218017581_1_alg».proof.Proof.LibBiasRow

noncomputable section

open scoped BigOperators

namespace Cert.Gru.Ref

open Cert.ReferenceIdeal Cert.ReferenceIdeal.Gen Cert.ReferenceIdeal.ReadP Idealize.ShloMosaic Idealize.ShloMosaic.ValueIdx Cert.Gru

/-- Two [16384, 512] arrays joined along the columns. -/
abbrev joined (X Y : FVec Ideal S16384x512 .f32) : FVec Ideal S16384x1024 .f32 :=
  concatenate S16384x1024 1 [⟨S16384x512, X⟩, ⟨S16384x512, Y⟩] concatenates_S16384x512_S16384x512_S16384x1024_d1

/-- The joined row r at a column of the first half is X's row r. -/
theorem row_lo (X Y : FVec Ideal S16384x512 .f32) (r : Fin 16384) (k : Fin 512) :
    joined X Y (ix2 r (lo k)) = X (ix2 r k) :=
  concatenate_pair_apply_left 1 X Y _ (ix2 r (lo k)) rfl (ix2 r k) fun b =>
    match b with
    | ⟨0, _⟩ => rfl
    | ⟨1, _⟩ => rfl

/-- The joined row r at a column of the second half is Y's row r, 512 columns back. -/
theorem row_hi (X Y : FVec Ideal S16384x512 .f32) (r : Fin 16384) (k : Fin 512) :
    joined X Y (ix2 r (hi k)) = Y (ix2 r k) :=
  concatenate_pair_apply_right 1 X Y _ (ix2 r (hi k)) rfl rfl (ix2 r k)
    (fun b hb => match b, hb with
      | ⟨0, _⟩, _ => rfl
      | ⟨1, _⟩, hb => absurd rfl hb)
    (show k.val + 512 = 512 + k.val from Nat.add_comm _ _)

/-- The joined rows times a whole weight matrix, at (r, c): X's row against the upper half plus Y's row against the
    lower half. -/
theorem joined_product (X Y : FVec Ideal S16384x512 .f32) (W : FVec Ideal S1024x512 .f32) (r : Fin 16384) (c : Fin 512) :
    Host.dotGeneral dot_S16384x1024_S1024x512_S16384x512_1_0_0_1_n_n none (joined X Y) W (ix2 r c)
      = (∑ k : Fin 512, X (ix2 r k) * W (ix2 (lo k) c)) + ∑ k : Fin 512, Y (ix2 r k) * W (ix2 (hi k) c) := by
  rw [Cert.Dense.dotGeneral_plain_apply dot_S16384x1024_S1024x512_S16384x512_1_0_0_1_n_n rfl rfl rfl rfl rfl rfl,
    sum_halves]
  simp only [row_lo, row_hi]

/-- A gate's argument as the reference spells it, at (r, c). -/
theorem joined_gate (X Y : FVec Ideal S16384x512 .f32) (W : FVec Ideal S1024x512 .f32) (b : FVec Ideal S512 .f32)
    (r : Fin 16384) (c : Fin 512) :
    addf (Host.dotGeneral dot_S16384x1024_S1024x512_S16384x512_1_0_0_1_n_n none (joined X Y) W)
        (broadcastInDim S16384x512 ![0, 1] bcast_S1x512_S16384x512_0_1 (broadcastInDim S1x512 ![1] bcast_S512_S1x512_1 b))
        (ix2 r c)
      = gateArg (fun k => X (ix2 r k)) (fun k => Y (ix2 r k)) (fun k c => W (ix2 (lo k) c)) (fun k c => W (ix2 (hi k) c))
          (fun c => b (ix1 c)) c := by
  rw [addf_apply, joined_product, Cert.BiasRow.layout_layout_apply]
  rfl

variable (x0 x1 : FVec Ideal S16384x512 .f32) (x2 x3 x4 : FVec Ideal S1024x512 .f32) (x5 x6 x7 : FVec Ideal S512 .f32)

/-- The update gate at (r, c). -/
theorem update_apply (r : Fin 16384) (c : Fin 512) :
    val_main_v10 (F := Ideal) x0 x1 x2 x5 (ix2 r c)
      = Ideal.logistic (gateArg (fun k => x0 (ix2 r k)) (fun k => x1 (ix2 r k)) (fun k c => x2 (ix2 (lo k) c))
          (fun k c => x2 (ix2 (hi k) c)) (fun c => x5 (ix1 c)) c) := by
  have e : val_main_v4 (F := Ideal) x0 x1 x2 x5 (ix2 r c) = _ := joined_gate x0 x1 x2 x5 r c
  rw [val_main_v10_apply, val_main_v9_apply, val_main_cst_0_apply, val_main_v8_apply, val_main_v7_apply,
    val_main_cst_apply, val_main_v6_apply, val_main_v5_apply, e]
  exact logistic_spelled _

/-- The reset gate at (r, k). -/
theorem reset_apply (r : Fin 16384) (k : Fin 512) :
    val_main_v20 (F := Ideal) x0 x1 x3 x6 (ix2 r k)
      = Ideal.logistic (gateArg (fun k => x0 (ix2 r k)) (fun k => x1 (ix2 r k)) (fun k c => x3 (ix2 (lo k) c))
          (fun k c => x3 (ix2 (hi k) c)) (fun c => x6 (ix1 c)) k) := by
  have e : val_main_v14 (F := Ideal) x0 x1 x3 x6 (ix2 r k) = _ := joined_gate x0 x1 x3 x6 r k
  rw [val_main_v20_apply, val_main_v19_apply, val_main_cst_2_apply, val_main_v18_apply, val_main_v17_apply,
    val_main_cst_1_apply, val_main_v16_apply, val_main_v15_apply, e]
  exact logistic_spelled _

/-- The candidate at (r, c): the hidden row enters the third product scaled by the reset gate. -/
theorem candidate_apply (r : Fin 16384) (c : Fin 512) :
    val_main_v27 (F := Ideal) x0 x1 x3 x4 x6 x7 (ix2 r c)
      = Ideal.tanh (gateArg (fun k => x0 (ix2 r k))
          (fun k => Ideal.logistic (gateArg (fun k => x0 (ix2 r k)) (fun k => x1 (ix2 r k)) (fun k c => x3 (ix2 (lo k) c))
            (fun k c => x3 (ix2 (hi k) c)) (fun c => x6 (ix1 c)) k) * x1 (ix2 r k))
          (fun k c => x4 (ix2 (lo k) c)) (fun k c => x4 (ix2 (hi k) c)) (fun c => x7 (ix1 c)) c) := by
  have e : val_main_v26 (F := Ideal) x0 x1 x3 x4 x6 x7 (ix2 r c) = _ :=
    joined_gate x0 (val_main_v21 (F := Ideal) x0 x1 x3 x6) x4 x7 r c
  have s : (fun k => val_main_v21 (F := Ideal) x0 x1 x3 x6 (ix2 r k))
      = fun k => Ideal.logistic (gateArg (fun k => x0 (ix2 r k)) (fun k => x1 (ix2 r k)) (fun k c => x3 (ix2 (lo k) c))
          (fun k c => x3 (ix2 (hi k) c)) (fun c => x6 (ix1 c)) k) * x1 (ix2 r k) :=
    funext fun k => by rw [val_main_v21_apply, reset_apply]; rfl
  rw [val_main_v27_apply, e, s]
  rfl

/-- The reference's result is the step. -/
theorem result_eq :
    val_main_v32 (F := Ideal) x0 x1 x2 x3 x4 x5 x6 x7 = step x0 x1 x2 x3 x4 x5 x6 x7 := by
  funext j
  obtain ⟨r, c, rfl⟩ : ∃ (r : Fin 16384) (c : Fin 512), j = ix2 r c := ⟨j 0, j 1, eq_ix2 j⟩
  rw [val_main_v32_apply, val_main_v30_apply, val_main_v29_apply, val_main_v28_apply, val_main_cst_3_apply,
    val_main_v31_apply, update_apply, candidate_apply, step_apply]
  show (Ideal.ofBits .f32 0x3F800000#32 - _) * _ + _ = _
  rw [Ideal.ofBits_one_f32]
  rfl

end Cert.Gru.Ref

end
-- ==== Proof.KernelBlock.lean ====
/-
  What the kernel body stores, read at an entry of the block.

  At a grid point the body holds a block of 1024 rows of x and of h, the six [512, 512] half matrices and the three
  bias rows, and stores one [1024, 512] block. Narrowing a value to bf16 is the identity on the extended reals, a
  shape cast to the same shape is the identity, and a product into a zero accumulator is the plain sum over the
  contracted index, so each gate's argument at (p, q) is  x_p · A_{·,q} + h_p · B_{·,q} + b_q  for its two half
  matrices A, B (`half_gate`). The stored value at (p, q) is then the cell of row p of the two blocks (`block_apply`):
  the update gate and the reset gate's argument are the two earlier payloads, the candidate takes the hidden row
  scaled by the reset gate, and the result mixes h and the candidate by the update gate.
-/
import proofs.«150550_j50165218017581_1_alg».proof.Proof.Gen.KernelIdeal.Frame
import proofs.«150550_j50165218017581_1_alg».proof.Proof.Cell
import proofs.«150550_j50165218017581_1_alg».proof.Proof.LibDense
import proofs.«150550_j50165218017581_1_alg».proof.Proof.LibBiasRow

noncomputable section

open scoped BigOperators

namespace Cert.Gru.Block

open Cert.KernelIdeal Cert.KernelIdeal.Gen Idealize.ShloMosaic Idealize.ShloMosaic.TcCoe Idealize.ShloMosaic.ValueIdx Cert.Gru

theorem zero2 : (![0, 0] : Fin 2 → Nat) = fun _ => 0 := funext fun a => by fin_cases a <;> rfl
theorem zero1 : (![0] : Fin 1 → Nat) = fun _ => 0 := funext fun a => by fin_cases a; rfl

/-- A gate's argument as the body spells it — two products into zero accumulators added, plus the bias row stretched
    over the 1024 rows — at (p, q). -/
theorem half_gate (L1 L2 : FVec Ideal S1024x512 .bf16) (R1 R2 : FVec Ideal S512x512 .bf16) (b : Vec Ideal S512 .f32)
    (p : Fin 1024) (q : Fin 512) :
    addf (addf (matmul dot_S1024x512_S512x512_S1024x512_1_0_0_1_n_n none L1 R1 (constant S1024x512 .f32 0x00000000#32))
          (matmul dot_S1024x512_S512x512_S1024x512_1_0_0_1_n_n none L2 R2 (constant S1024x512 .f32 0x00000000#32)))
        (broadcastTo S1024x512 (shapeCast S1x512 b shapeCasts_S512_S1x512) broadcasts_S1x512_S1024x512) (ix2 p q)
      = gateArg (fun k => L1 (ix2 p k)) (fun k => L2 (ix2 p k)) (fun k c => R1 (ix2 k c)) (fun k c => R2 (ix2 k c))
          (fun c => b (ix1 c)) q := by
  rw [addf_apply, addf_apply,
    Cert.Dense.matmul_zero_plain_apply dot_S1024x512_S512x512_S1024x512_1_0_0_1_n_n rfl rfl rfl rfl rfl rfl,
    Cert.Dense.matmul_zero_plain_apply dot_S1024x512_S512x512_S1024x512_1_0_0_1_n_n rfl rfl rfl rfl rfl rfl,
    Cert.BiasRow.cast_stretch_apply]
  rfl

/-- A half matrix cast to its own shape and narrowed to bf16 is itself. -/
theorem half_eq (v : Vec Ideal S512x512 .f32) :
    (truncf (F := Ideal) .bf16 (shapeCast S512x512 v shapeCasts_S512x512_S512x512) bitsLt_bf16_f32 : S512x512.Idx → EReal)
      = v := by
  rw [shapeCast_self]; rfl

/-- The update gate at (p, q). -/
theorem update_block (v0 v1 : Vec Ideal S1024x512 .f32) (v4 v7 : Vec Ideal S512x512 .f32) (v25 : Vec Ideal S512 .f32)
    (p : Fin 1024) (q : Fin 512) :
    k0_pay6 (F := Ideal) v0 v1 v4 v7 v25 (ix2 p q)
      = Ideal.logistic (gateArg (fun k => v0 (ix2 p k)) (fun k => v1 (ix2 p k)) (fun k c => v4 (ix2 k c))
          (fun k c => v7 (ix2 k c)) (fun c => v25 (ix1 c)) q) := by
  unfold k0_pay6 k0_pay2 k0_pay3
  show Ideal.logistic (addf (F := Ideal) (s := S1024x512) (φ := .f32) (addf _ _) _ (ix2 p q)) = _
  rw [half_gate, half_eq, half_eq]
  rfl

/-- The reset gate's argument at (p, q). -/
theorem reset_arg_block (v0 v1 : Vec Ideal S1024x512 .f32) (v10 v13 : Vec Ideal S512x512 .f32) (v33 : Vec Ideal S512 .f32)
    (p : Fin 1024) (q : Fin 512) :
    k0_pay7 (F := Ideal) v0 v1 v10 v13 v33 (ix2 p q)
      = gateArg (fun k => v0 (ix2 p k)) (fun k => v1 (ix2 p k)) (fun k c => v10 (ix2 k c))
          (fun k c => v13 (ix2 k c)) (fun c => v33 (ix1 c)) q := by
  unfold k0_pay7 k0_pay2 k0_pay3
  show addf (F := Ideal) (s := S1024x512) (φ := .f32) (addf _ _) _ (ix2 p q) = _
  rw [half_gate, half_eq, half_eq]
  rfl

/-- The stored value at (p, q), from the hidden block v1, the narrowed input block v2, the candidate's two half
    matrices, the update gate v29, the reset gate's argument v36 and the candidate's bias row. -/
theorem mix_block (v1 : Vec Ideal S1024x512 .f32) (v2 : FVec Ideal S1024x512 .bf16) (v18 v21 : FVec Ideal S512x512 .bf16)
    (v29 v36 : FVec Ideal S1024x512 .f32) (v43 : Vec Ideal S512 .f32) (p : Fin 1024) (q : Fin 512) :
    k0_pay1 (F := Ideal) v1 v2 v18 v21 v29 v36 v43 (ix2 p q)
      = (1 - v29 (ix2 p q)) * v1 (ix2 p q)
        + v29 (ix2 p q) * Ideal.tanh (gateArg (fun k => v2 (ix2 p k))
            (fun k => Ideal.logistic (v36 (ix2 p k)) * v1 (ix2 p k))
            (fun k c => v18 (ix2 k c)) (fun k c => v21 (ix2 k c)) (fun c => v43 (ix1 c)) q) := by
  unfold k0_pay1
  show (Ideal.ofBits .f32 0x3F800000#32 - v29 (ix2 p q)) * v1 (ix2 p q)
      + v29 (ix2 p q) * Ideal.tanh (addf (F := Ideal) (s := S1024x512) (φ := .f32) (addf _ _) _ (ix2 p q)) = _
  rw [half_gate, Ideal.ofBits_one_f32]
  rfl

/-- The block the body stores, at (p, q): the cell of row p of the x block and the h block. -/
theorem block_apply (x0 x1 : Vec Ideal S1024x512 .f32) (x2 x3 x4 x5 x6 x7 : Vec Ideal S512x512 .f32)
    (x8 x9 x10 : Vec Ideal S512 .f32) (p : Fin 1024) (q : Fin 512) :
    out0_11 (F := Ideal) x0 x1 x2 x3 x4 x5 x6 x7 x8 x9 x10 (ix2 p q)
      = cell (fun k => x0 (ix2 p k)) (fun k => x1 (ix2 p k))
          (fun k c => x2 (ix2 k c)) (fun k c => x3 (ix2 k c)) (fun k c => x4 (ix2 k c)) (fun k c => x5 (ix2 k c))
          (fun k c => x6 (ix2 k c)) (fun k c => x7 (ix2 k c))
          (fun c => x8 (ix1 c)) (fun c => x9 (ix1 c)) (fun c => x10 (ix1 c)) q := by
  unfold out0_11
  rw [View.canon_unit_zero zero2]
  simp only [View.ld_unit_zero (S := S1024x512) zero2, View.ld_unit_zero (S := S512x512) zero2,
    View.ld_unit_zero (S := S512) zero1]
  have s : (fun k => Ideal.logistic (k0_pay7 (F := Ideal) x0 x1 x4 x5 x9 (ix2 p k)) * x1 (ix2 p k))
      = fun k => Ideal.logistic (gateArg (fun k => x0 (ix2 p k)) (fun k => x1 (ix2 p k)) (fun k c => x4 (ix2 k c))
          (fun k c => x5 (ix2 k c)) (fun c => x9 (ix1 c)) k) * x1 (ix2 p k) :=
    funext fun k => by rw [reset_arg_block]
  rw [mix_block, update_block, s]
  unfold k0_pay2 k0_pay4 k0_pay5
  rw [half_eq, half_eq]
  rfl

/-- The stored block at an index y is the step of the whole arrays at the array index j, once the blocks are known to
    be the arrays' parts: row p of the x and h blocks is row r of X and H, the six half matrices are the upper and lower
    halves of the three weight matrices, the bias rows are the bias rows, and y = (p, q), j = (r, q). -/
theorem block_is_step (X H : FVec Ideal S16384x512 .f32) (Wu Wr Wh : FVec Ideal S1024x512 .f32)
    (bu br bh : FVec Ideal S512 .f32)
    (x0 x1 : Vec Ideal S1024x512 .f32) (x2 x3 x4 x5 x6 x7 : Vec Ideal S512x512 .f32) (x8 x9 x10 : Vec Ideal S512 .f32)
    (y : S1024x512.Idx) (j : S16384x512.Idx) (p : Fin 1024) (q : Fin 512) (r : Fin 16384)
    (hy : y = ix2 p q) (hj : j = ix2 r q)
    (h0 : ∀ k : Fin 512, x0 (ix2 p k) = X (ix2 r k)) (h1 : ∀ k : Fin 512, x1 (ix2 p k) = H (ix2 r k))
    (h2 : ∀ (k c : Fin 512), x2 (ix2 k c) = Wu (ix2 (lo k) c)) (h3 : ∀ (k c : Fin 512), x3 (ix2 k c) = Wu (ix2 (hi k) c))
    (h4 : ∀ (k c : Fin 512), x4 (ix2 k c) = Wr (ix2 (lo k) c)) (h5 : ∀ (k c : Fin 512), x5 (ix2 k c) = Wr (ix2 (hi k) c))
    (h6 : ∀ (k c : Fin 512), x6 (ix2 k c) = Wh (ix2 (lo k) c)) (h7 : ∀ (k c : Fin 512), x7 (ix2 k c) = Wh (ix2 (hi k) c))
    (h8 : ∀ c : Fin 512, x8 (ix1 c) = bu (ix1 c)) (h9 : ∀ c : Fin 512, x9 (ix1 c) = br (ix1 c))
    (h10 : ∀ c : Fin 512, x10 (ix1 c) = bh (ix1 c)) :
    out0_11 (F := Ideal) x0 x1 x2 x3 x4 x5 x6 x7 x8 x9 x10 y = step X H Wu Wr Wh bu br bh j := by
  subst hy hj
  rw [block_apply, step_apply]
  simp only [h0, h1, h2, h3, h4, h5, h6, h7, h8, h9, h10]

end Cert.Gru.Block

end
-- ==== Proof.KernelArray.lean ====
/-
  From the blocks to the whole array.

  The grid has 16 points. At point t the pipeline hands the body rows 1024 t … 1024 t + 1023 of the inputs and of
  the previous hidden state (`x_rows_block`, `h_rows_block`), the six half matrices the host sliced off the three
  weight matrices before the region (`update_upper_block` … `cand_lower_block`: the upper half is rows 0 … 511, the
  lower half rows 512 … 1023), and the three bias rows whole; it writes the stored block back to rows
  1024 t … 1024 t + 1023 of the result. A row of the step depends on that row of the inputs and of the hidden state
  only, so what point t writes back is block t of the step of the whole arrays (`flushed_eq`). Every row r lies in the
  block of point r / 1024 (`cover`), so after the run the result array is the step of the argument arrays (`final`,
  `run`).
-/
import proofs.«150550_j50165218017581_1_alg».proof.Proof.Gen.KernelIdeal.Value
import proofs.«150550_j50165218017581_1_alg».proof.Proof.KernelBlock
import Idealize.ShloMosaic.Lib.StableHlo.Run

set_option maxRecDepth 16384

noncomputable section

namespace Cert.Gru.Arr

open Cert.KernelIdeal Cert.KernelIdeal.Gen Idealize.ShloMosaic Idealize.ShloMosaic.TcCoe Idealize.SL.Sem
open Idealize.ShloMosaic.StableHlo Idealize.ShloMosaic.ValueIdx Cert.Gru
open Idealize.ShloMosaic.Pipeline (Dat)

variable (m : (ℓ : Loc nD τ sig) → Buf (Elt Ideal) ℓ) (ρ : Dev nD → PrngReg)

/-- The step of the argument arrays as the kernel is launched with them. -/
abbrev result (c : Dev nD) : S16384x512.Idx → EReal :=
  step (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-- Window 0's block at point t is rows 1024 t … 1024 t + 1023 of the inputs. -/
theorem x_rows_block (c : Dev nD) (t : Fin cfg0.N) (p : Fin 1024) (k : Fin 512) (r : Fin 16384)
    (hr : r.val = t.val * 1024 + p.val) :
    (iblk m c 0 t : Vec Ideal S1024x512 .f32) (ix2 p k)
      = (m ((c : Thread nD τ).loc main_arg0) : S16384x512.Idx → EReal) (ix2 r k) := by
  have hi' : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold iblk
  rw [View.read_apply]
  show V m c main_arg0 _ = _
  rw [V_main_arg0]
  refine congrArg (m ((c : Thread nD τ).loc main_arg0) : S16384x512.Idx → EReal) (funext fun a => Fin.ext ?_)
  match a with
  | ⟨0, _⟩ => show win0_0.index t (0 : Fin 2) * 1024 + 1 * p.val = r.val; rw [hi'.1, hr]; omega
  | ⟨1, _⟩ => show win0_0.index t (1 : Fin 2) * 512 + 1 * k.val = k.val; rw [hi'.2]; omega

/-- Window 1's block at point t is rows 1024 t … 1024 t + 1023 of the previous hidden state. -/
theorem h_rows_block (c : Dev nD) (t : Fin cfg0.N) (p : Fin 1024) (k : Fin 512) (r : Fin 16384)
    (hr : r.val = t.val * 1024 + p.val) :
    (iblk m c 1 t : Vec Ideal S1024x512 .f32) (ix2 p k)
      = (m ((c : Thread nD τ).loc main_arg1) : S16384x512.Idx → EReal) (ix2 r k) := by
  have hi' : win0_1.index t (0 : Fin 2) = t.val ∧ win0_1.index t (1 : Fin 2) = 0 :=
    (by decide +kernel : ∀ t : Fin grid0.N, win0_1.index t (0 : Fin 2) = t.val ∧ win0_1.index t (1 : Fin 2) = 0) t
  unfold iblk
  rw [View.read_apply]
  show V m c main_arg1 _ = _
  rw [V_main_arg1]
  refine congrArg (m ((c : Thread nD τ).loc main_arg1) : S16384x512.Idx → EReal) (funext fun a => Fin.ext ?_)
  match a with
  | ⟨0, _⟩ => show win0_1.index t (0 : Fin 2) * 1024 + 1 * p.val = r.val; rw [hi'.1, hr]; omega
  | ⟨1, _⟩ => show win0_1.index t (1 : Fin 2) * 512 + 1 * k.val = k.val; rw [hi'.2]; omega

/-- Window 2's block at every point is the update gate's upper half matrix: the host slices it off before the region, and the
    window's one block is the whole slice. -/
theorem update_upper_block (c : Dev nD) (t : Fin cfg0.N) (k q : Fin 512) :
    (iblk m c 2 t : Vec Ideal S512x512 .f32) (ix2 k q)
      = (m ((c : Thread nD τ).loc main_arg2) : S1024x512.Idx → EReal) (ix2 (lo k) q) := by
  have e : (V m c main_v0 : S512x512.Idx → EReal)
      = extractStridedSlice S512x512 ![0, 0] (m ((c : Thread nD τ).loc main_arg2)) slices_S1024x512_S512x512_0_0 := by
    dsimp only [Gen.V, Gen.hostOps0]; after_results
  have hi' : win0_2.index t (0 : Fin 2) = 0 ∧ win0_2.index t (1 : Fin 2) = 0 :=
    (by decide +kernel : ∀ t : Fin grid0.N, win0_2.index t (0 : Fin 2) = 0 ∧ win0_2.index t (1 : Fin 2) = 0) t
  unfold iblk
  rw [View.read_apply]
  show V m c main_v0 _ = _
  rw [e]
  refine extractStridedSlice_apply _ _ _ _ _ fun a => ?_
  match a with
  | ⟨0, _⟩ => show (lo k).val = _ + (win0_2.index t (0 : Fin 2) * 512 + 1 * k.val); rw [hi'.1]; simp [lo]
  | ⟨1, _⟩ => show q.val = _ + (win0_2.index t (1 : Fin 2) * 512 + 1 * q.val); rw [hi'.2]; simp

/-- Window 3's block at every point is the update gate's lower half matrix: the host slices it off before the region, and the
    window's one block is the whole slice. -/
theorem update_lower_block (c : Dev nD) (t : Fin cfg0.N) (k q : Fin 512) :
    (iblk m c 3 t : Vec Ideal S512x512 .f32) (ix2 k q)
      = (m ((c : Thread nD τ).loc main_arg2) : S1024x512.Idx → EReal) (ix2 (hi k) q) := by
  have e : (V m c main_v1 : S512x512.Idx → EReal)
      = extractStridedSlice S512x512 ![512, 0] (m ((c : Thread nD τ).loc main_arg2)) slices_S1024x512_S512x512_512_0 := by
    dsimp only [Gen.V, Gen.hostOps0]; after_results
  have hi' : win0_3.index t (0 : Fin 2) = 0 ∧ win0_3.index t (1 : Fin 2) = 0 :=
    (by decide +kernel : ∀ t : Fin grid0.N, win0_3.index t (0 : Fin 2) = 0 ∧ win0_3.index t (1 : Fin 2) = 0) t
  unfold iblk
  rw [View.read_apply]
  show V m c main_v1 _ = _
  rw [e]
  refine extractStridedSlice_apply _ _ _ _ _ fun a => ?_
  match a with
  | ⟨0, _⟩ => show (hi k).val = _ + (win0_3.index t (0 : Fin 2) * 512 + 1 * k.val); rw [hi'.1]; simp [hi]
  | ⟨1, _⟩ => show q.val = _ + (win0_3.index t (1 : Fin 2) * 512 + 1 * q.val); rw [hi'.2]; simp

/-- Window 4's block at every point is the reset gate's upper half matrix: the host slices it off before the region, and the
    window's one block is the whole slice. -/
theorem reset_upper_block (c : Dev nD) (t : Fin cfg0.N) (k q : Fin 512) :
    (iblk m c 4 t : Vec Ideal S512x512 .f32) (ix2 k q)
      = (m ((c : Thread nD τ).loc main_arg3) : S1024x512.Idx → EReal) (ix2 (lo k) q) := by
  have e : (V m c main_v2 : S512x512.Idx → EReal)
      = extractStridedSlice S512x512 ![0, 0] (m ((c : Thread nD τ).loc main_arg3)) slices_S1024x512_S512x512_0_0 := by
    dsimp only [Gen.V, Gen.hostOps0]; after_results
  have hi' : win0_4.index t (0 : Fin 2) = 0 ∧ win0_4.index t (1 : Fin 2) = 0 :=
    (by decide +kernel : ∀ t : Fin grid0.N, win0_4.index t (0 : Fin 2) = 0 ∧ win0_4.index t (1 : Fin 2) = 0) t
  unfold iblk
  rw [View.read_apply]
  show V m c main_v2 _ = _
  rw [e]
  refine extractStridedSlice_apply _ _ _ _ _ fun a => ?_
  match a with
  | ⟨0, _⟩ => show (lo k).val = _ + (win0_4.index t (0 : Fin 2) * 512 + 1 * k.val); rw [hi'.1]; simp [lo]
  | ⟨1, _⟩ => show q.val = _ + (win0_4.index t (1 : Fin 2) * 512 + 1 * q.val); rw [hi'.2]; simp

/-- Window 5's block at every point is the reset gate's lower half matrix: the host slices it off before the region, and the
    window's one block is the whole slice. -/
theorem reset_lower_block (c : Dev nD) (t : Fin cfg0.N) (k q : Fin 512) :
    (iblk m c 5 t : Vec Ideal S512x512 .f32) (ix2 k q)
      = (m ((c : Thread nD τ).loc main_arg3) : S1024x512.Idx → EReal) (ix2 (hi k) q) := by
  have e : (V m c main_v3 : S512x512.Idx → EReal)
      = extractStridedSlice S512x512 ![512, 0] (m ((c : Thread nD τ).loc main_arg3)) slices_S1024x512_S512x512_512_0 := by
    dsimp only [Gen.V, Gen.hostOps0]; after_results
  have hi' : win0_5.index t (0 : Fin 2) = 0 ∧ win0_5.index t (1 : Fin 2) = 0 :=
    (by decide +kernel : ∀ t : Fin grid0.N, win0_5.index t (0 : Fin 2) = 0 ∧ win0_5.index t (1 : Fin 2) = 0) t
  unfold iblk
  rw [View.read_apply]
  show V m c main_v3 _ = _
  rw [e]
  refine extractStridedSlice_apply _ _ _ _ _ fun a => ?_
  match a with
  | ⟨0, _⟩ => show (hi k).val = _ + (win0_5.index t (0 : Fin 2) * 512 + 1 * k.val); rw [hi'.1]; simp [hi]
  | ⟨1, _⟩ => show q.val = _ + (win0_5.index t (1 : Fin 2) * 512 + 1 * q.val); rw [hi'.2]; simp

/-- Window 6's block at every point is the candidate's upper half matrix: the host slices it off before the region, and the
    window's one block is the whole slice. -/
theorem cand_upper_block (c : Dev nD) (t : Fin cfg0.N) (k q : Fin 512) :
    (iblk m c 6 t : Vec Ideal S512x512 .f32) (ix2 k q)
      = (m ((c : Thread nD τ).loc main_arg4) : S1024x512.Idx → EReal) (ix2 (lo k) q) := by
  have e : (V m c main_v4 : S512x512.Idx → EReal)
      = extractStridedSlice S512x512 ![0, 0] (m ((c : Thread nD τ).loc main_arg4)) slices_S1024x512_S512x512_0_0 := by
    dsimp only [Gen.V, Gen.hostOps0]; after_results
  have hi' : win0_6.index t (0 : Fin 2) = 0 ∧ win0_6.index t (1 : Fin 2) = 0 :=
    (by decide +kernel : ∀ t : Fin grid0.N, win0_6.index t (0 : Fin 2) = 0 ∧ win0_6.index t (1 : Fin 2) = 0) t
  unfold iblk
  rw [View.read_apply]
  show V m c main_v4 _ = _
  rw [e]
  refine extractStridedSlice_apply _ _ _ _ _ fun a => ?_
  match a with
  | ⟨0, _⟩ => show (lo k).val = _ + (win0_6.index t (0 : Fin 2) * 512 + 1 * k.val); rw [hi'.1]; simp [lo]
  | ⟨1, _⟩ => show q.val = _ + (win0_6.index t (1 : Fin 2) * 512 + 1 * q.val); rw [hi'.2]; simp

/-- Window 7's block at every point is the candidate's lower half matrix: the host slices it off before the region, and the
    window's one block is the whole slice. -/
theorem cand_lower_block (c : Dev nD) (t : Fin cfg0.N) (k q : Fin 512) :
    (iblk m c 7 t : Vec Ideal S512x512 .f32) (ix2 k q)
      = (m ((c : Thread nD τ).loc main_arg4) : S1024x512.Idx → EReal) (ix2 (hi k) q) := by
  have e : (V m c main_v5 : S512x512.Idx → EReal)
      = extractStridedSlice S512x512 ![512, 0] (m ((c : Thread nD τ).loc main_arg4)) slices_S1024x512_S512x512_512_0 := by
    dsimp only [Gen.V, Gen.hostOps0]; after_results
  have hi' : win0_7.index t (0 : Fin 2) = 0 ∧ win0_7.index t (1 : Fin 2) = 0 :=
    (by decide +kernel : ∀ t : Fin grid0.N, win0_7.index t (0 : Fin 2) = 0 ∧ win0_7.index t (1 : Fin 2) = 0) t
  unfold iblk
  rw [View.read_apply]
  show V m c main_v5 _ = _
  rw [e]
  refine extractStridedSlice_apply _ _ _ _ _ fun a => ?_
  match a with
  | ⟨0, _⟩ => show (hi k).val = _ + (win0_7.index t (0 : Fin 2) * 512 + 1 * k.val); rw [hi'.1]; simp [hi]
  | ⟨1, _⟩ => show q.val = _ + (win0_7.index t (1 : Fin 2) * 512 + 1 * q.val); rw [hi'.2]; simp

/-- Window 8's block at every point is the whole bias row. -/
theorem update_bias_block (c : Dev nD) (t : Fin cfg0.N) (q : Fin 512) :
    (iblk m c 8 t : Vec Ideal S512 .f32) (ix1 q) = (m ((c : Thread nD τ).loc main_arg5) : S512.Idx → EReal) (ix1 q) := by
  have hi' : win0_8.index t (0 : Fin 1) = 0 :=
    (by decide +kernel : ∀ t : Fin grid0.N, win0_8.index t (0 : Fin 1) = 0) t
  unfold iblk
  rw [View.read_apply]
  show V m c main_arg5 _ = _
  rw [V_main_arg5]
  refine congrArg (m ((c : Thread nD τ).loc main_arg5) : S512.Idx → EReal) (funext fun a => Fin.ext ?_)
  match a with
  | ⟨0, _⟩ => show win0_8.index t (0 : Fin 1) * 512 + 1 * q.val = q.val; rw [hi']; omega

/-- Window 9's block at every point is the whole bias row. -/
theorem reset_bias_block (c : Dev nD) (t : Fin cfg0.N) (q : Fin 512) :
    (iblk m c 9 t : Vec Ideal S512 .f32) (ix1 q) = (m ((c : Thread nD τ).loc main_arg6) : S512.Idx → EReal) (ix1 q) := by
  have hi' : win0_9.index t (0 : Fin 1) = 0 :=
    (by decide +kernel : ∀ t : Fin grid0.N, win0_9.index t (0 : Fin 1) = 0) t
  unfold iblk
  rw [View.read_apply]
  show V m c main_arg6 _ = _
  rw [V_main_arg6]
  refine congrArg (m ((c : Thread nD τ).loc main_arg6) : S512.Idx → EReal) (funext fun a => Fin.ext ?_)
  match a with
  | ⟨0, _⟩ => show win0_9.index t (0 : Fin 1) * 512 + 1 * q.val = q.val; rw [hi']; omega

/-- Window 10's block at every point is the whole bias row. -/
theorem cand_bias_block (c : Dev nD) (t : Fin cfg0.N) (q : Fin 512) :
    (iblk m c 10 t : Vec Ideal S512 .f32) (ix1 q) = (m ((c : Thread nD τ).loc main_arg7) : S512.Idx → EReal) (ix1 q) := by
  have hi' : win0_10.index t (0 : Fin 1) = 0 :=
    (by decide +kernel : ∀ t : Fin grid0.N, win0_10.index t (0 : Fin 1) = 0) t
  unfold iblk
  rw [View.read_apply]
  show V m c main_arg7 _ = _
  rw [V_main_arg7]
  refine congrArg (m ((c : Thread nD τ).loc main_arg7) : S512.Idx → EReal) (funext fun a => Fin.ext ?_)
  match a with
  | ⟨0, _⟩ => show win0_10.index t (0 : Fin 1) * 512 + 1 * q.val = q.val; rw [hi']; omega

/-- The output window's block index at point t is (t, 0). -/
theorem out_index (t : Fin cfg0.N) : win0_11.index t (0 : Fin 2) = t.val ∧ win0_11.index t (1 : Fin 2) = 0 :=
  (by decide +kernel : ∀ t : Fin grid0.N, win0_11.index t (0 : Fin 2) = t.val ∧ win0_11.index t (1 : Fin 2) = 0) t

/-- What point t writes back is block t of the step of the whole arrays. -/
theorem flushed_eq (c : Dev nD) (t : Fin cfg0.N) :
    (dats m 0 c).flushed 11 t = ((cfg0.win 11).blk t).view.read (Elt Ideal) (result m c) := by
  rw [Cert.KernelIdeal.Value.flushed11]
  obtain ⟨e0, e1⟩ := out_index t
  funext y
  show out0_11 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) y
    = result m c (((cfg0.win 11).blk t).view.emb y)
  have hlt : t.val < 16 := t.isLt
  have hy0 : (y 0).val < 1024 := (y 0).isLt
  have hr : t.val * 1024 + (y 0).val < 16384 := by omega
  refine Cert.Gru.Block.block_is_step _ _ _ _ _ _ _ _
    (iblk m c 0 t) (iblk m c 1 t) (iblk m c 2 t) (iblk m c 3 t) (iblk m c 4 t) (iblk m c 5 t)
    (iblk m c 6 t) (iblk m c 7 t) (iblk m c 8 t) (iblk m c 9 t) (iblk m c 10 t)
    y (((cfg0.win 11).blk t).view.emb y) (y 0) (y 1) ⟨t.val * 1024 + (y 0).val, hr⟩ (eq_ix2 y) ?_
    (fun k => x_rows_block m c t (y 0) k _ rfl) (fun k => h_rows_block m c t (y 0) k _ rfl)
    (fun k q => update_upper_block m c t k q) (fun k q => update_lower_block m c t k q)
    (fun k q => reset_upper_block m c t k q) (fun k q => reset_lower_block m c t k q)
    (fun k q => cand_upper_block m c t k q) (fun k q => cand_lower_block m c t k q)
    (fun q => update_bias_block m c t q) (fun q => reset_bias_block m c t q) (fun q => cand_bias_block m c t q)
  funext a
  apply Fin.ext
  match a with
  | ⟨0, _⟩ => show win0_11.index t (0 : Fin 2) * 1024 + 1 * (y 0).val = t.val * 1024 + (y 0).val; rw [e0]; omega
  | ⟨1, _⟩ => show win0_11.index t (1 : Fin 2) * 512 + 1 * (y 1).val = (y 1).val; rw [e1]; omega

/-- An index of the result array is in point t's block iff each coordinate is in the block's range on its axis. -/
theorem mem_blk (t : Fin cfg0.N) (i : S16384x512.Idx) :
    i ∈ ((cfg0.win 11).blk t).view.set ↔ ∀ a : Fin 2, win0_11.index t a * S1024x512.size a ≤ (i a).val
      ∧ (i a).val < win0_11.index t a * S1024x512.size a + S1024x512.size a := by
  show i ∈ ((View.whole main_v6).slice (win0_11.rect t)).set ↔ _
  rw [View.set_slice_whole, Rect.mem_set_unit]
  exact Iff.rfl

/-- Every index of the result array lies in some point's block: row r in the block of point r / 1024. -/
theorem cover (i : S16384x512.Idx) :
    ∃ t : Fin cfg0.N, (cfg0.win 11).flush t = true ∧ i ∈ ((cfg0.win 11).blk t).view.set := by
  have hi0 : (i 0).val < 16384 := (i 0).isLt
  have hi1 : (i 1).val < 512 := (i 1).isLt
  have hN : cfg0.N = 16 := N_0
  refine ⟨⟨(i 0).val / 1024, by rw [hN]; omega⟩, flush0_11 _, ?_⟩
  rw [mem_blk]
  obtain ⟨e0, e1⟩ := out_index ⟨(i 0).val / 1024, by rw [hN]; omega⟩
  intro a
  match a with
  | ⟨0, _⟩ =>
    show win0_11.index _ (0 : Fin 2) * 1024 ≤ (i 0).val ∧ (i 0).val < win0_11.index _ (0 : Fin 2) * 1024 + 1024
    rw [e0]; show (i 0).val / 1024 * 1024 ≤ (i 0).val ∧ (i 0).val < (i 0).val / 1024 * 1024 + 1024; omega
  | ⟨1, _⟩ =>
    show win0_11.index _ (1 : Fin 2) * 512 ≤ (i 1).val ∧ (i 1).val < win0_11.index _ (1 : Fin 2) * 512 + 512
    rw [e1]; omega

/-- After the run the result array is the step of the argument arrays. -/
theorem final (c : Dev nD) : (dats m 0 c).arrAt 11 cfg0.N = result m c :=
  (dats m 0 c).arrAt_eq_of_cover 11 (result m c) (fun t _ => flushed_eq m c t) cover

/-- The kernel's run: it terminates with the result array at the step of the argument arrays, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Cert.KernelIdeal.Value.run_blocks m ρ)

end Cert.Gru.Arr

end
-- ==== Proof.lean ====
/-
  A gated recurrent unit's step: a Pallas kernel against its jnp reference, equal over the extended reals.

  Both programs map a batch of 16384 input rows x and hidden rows h (512 numbers each), three [1024, 512] weight
  matrices with their bias rows, to the new hidden rows
      h' = (1 − z) ⊙ h + z ⊙ tanh ((x | r ⊙ h) · W_h + b_h),   z = σ ((x | h) · W_u + b_u),   r = σ ((x | h) · W_r + b_r),
  σ the logistic function. The reference joins each pair of rows into a row of 1024 numbers and multiplies by the whole
  matrix; the kernel, sixteen blocks of 1024 rows, multiplies x by the upper 512 rows of the matrix and the hidden row
  by the lower 512 rows and adds the two products. These agree because a sum over 1024 terms is the sum over its first
  512 plus the sum over its last 512, which needs only that addition of extended reals is associative and commutative:
  no input has to be finite for it. The kernel's narrowing of the operands to bf16 before each product is the identity
  on the extended reals, its logistic operation is by definition 1 / (1 + e^(−t)), the form the reference spells out,
  and both take tanh of the same argument. So both result arrays are one function of the argument arrays, the step
  (Proof/Cell.lean): the reference's by Proof/RefIsStep.lean, the kernel's block by block (Proof/KernelBlock.lean) and
  then as a whole array (Proof/KernelArray.lean).

  The three programs terminate without a fault and leave their arguments unchanged (the frames); the idealized kernel
  is the kernel's own text read over the extended reals, no operation rewritten, so there is nothing to preserve.
-/
import proofs.«150550_j50165218017581_1_alg».proof.Defs
import proofs.«150550_j50165218017581_1_alg».proof.Proof.Gen.Kernel
import proofs.«150550_j50165218017581_1_alg».proof.Proof.Gen.Kernel.Skeleton
import proofs.«150550_j50165218017581_1_alg».proof.Proof.Gen.Kernel.Launch
import proofs.«150550_j50165218017581_1_alg».proof.Proof.Gen.Kernel.Points
import proofs.«150550_j50165218017581_1_alg».proof.Proof.Gen.Kernel.Frame
import proofs.«150550_j50165218017581_1_alg».proof.Proof.Gen.KernelIdeal
import proofs.«150550_j50165218017581_1_alg».proof.Proof.Gen.KernelIdeal.Skeleton
import proofs.«150550_j50165218017581_1_alg».proof.Proof.Gen.KernelIdeal.Launch
import proofs.«150550_j50165218017581_1_alg».proof.Proof.Gen.KernelIdeal.Points
import proofs.«150550_j50165218017581_1_alg».proof.Proof.Gen.KernelIdeal.Frame
import proofs.«150550_j50165218017581_1_alg».proof.Proof.Gen.ReferenceIdeal
import proofs.«150550_j50165218017581_1_alg».proof.Proof.Gen.Pre_finite_inputs
import proofs.«150550_j50165218017581_1_alg».proof.Proof.Gen.KernelIdeal.Value
import proofs.«150550_j50165218017581_1_alg».proof.Proof.RefRun
import proofs.«150550_j50165218017581_1_alg».proof.Proof.RefRead
import proofs.«150550_j50165218017581_1_alg».proof.Proof.RefIsStep
import proofs.«150550_j50165218017581_1_alg».proof.Proof.KernelArray
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a sequence of host operations: its run, with the result's value dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the arguments, the kernel's result array and the reference's both end at the step of
    the argument arrays. -/
theorem algebraic : Cert.algebraic_KernelIdeal_ReferenceIdeal := by
  intro m ρ m' ρ' _ hagree
  refine ⟨fun c => Cert.Gru.Arr.result m c, Cert.Gru.Arr.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v32_eq, Cert.Gru.Ref.result_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
